-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part2 {F : FTy → Type} [FloatOps F] (main_arg1 : IVec S2x600000 32) (main_v33 : IVec S_ 1) : IVec S_ 1 :=
  let main_c_12 : IVec S_ 32 := constantI S_ 32 4294867296#32
  let main_v34 : IVec S2x600000 32 := broadcastInDim S2x600000 ![] bcast_S_S2x600000 main_c_12
  let main_v35 : IVec S2x600000 1 := cmpi .sge main_arg1 main_v34
  let main_c_13 : IVec S_ 32 := constantI S_ 32 100000#32
  let main_v36 : IVec S2x600000 32 := broadcastInDim S2x600000 ![] bcast_S_S2x600000 main_c_13
  let main_v37 : IVec S2x600000 1 := cmpi .slt main_arg1 main_v36
  let main_v38 : IVec S2x600000 1 := andi main_v35 main_v37
  let main_c_14 : IVec S_ 1 := constantI S_ 1 1#1
  let main_v39 : IVec S_ 1 := (fun x v => Host.reduce IntOp.andi x v reducesTo_S2x600000_S_d0_1 h_S_) main_v38 main_c_14
  let main_v40 : IVec S_ 1 := andi main_v33 main_v39
  main_v40

def fn_part1 {F : FTy → Type} [FloatOps F] (main_arg1 : IVec S2x600000 32) (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S100000x128 : Shape := ⟨2, ![100000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S3000x128 : Shape := ⟨2, ![3000, 128]⟩
abbrev S5000x128 : Shape := ⟨2, ![5000, 128]⟩

abbrev nBuf : Space → Nat
  | .hbm => 68
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S1, .i32⟩
  | .hbm, ⟨24, _⟩ => ⟨S_, .i32⟩
  | .hbm, ⟨25, _⟩ => ⟨S600000x1, .i32⟩
  | .hbm, ⟨26, _⟩ => ⟨S600000x1, .i1⟩
  | .hbm, ⟨27, _⟩ => ⟨S1x1, .i32⟩
  | .hbm, ⟨28, _⟩ => ⟨S600000x1, .i32⟩
  | .hbm, ⟨29, _⟩ => ⟨S600000x1, .i1⟩
  | .hbm, ⟨30, _⟩ => ⟨S600000x1, .i1⟩
  | .hbm, ⟨31, _⟩ => ⟨S_, .i1⟩
  | .hbm, ⟨32, _⟩ => ⟨S600000, .i1⟩
  | .hbm, ⟨33, _⟩ => ⟨S600000x128, .f32⟩
  | .hbm, ⟨34, _⟩ => ⟨S600000x128, .i1⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S1, .i32⟩
  | .hbm, ⟨47, _⟩ => ⟨S_, .i32⟩
  | .hbm, ⟨48, _⟩ => ⟨S600000x1, .i32⟩
  | .hbm, ⟨49, _⟩ => ⟨S600000x1, .i1⟩
  | .hbm, ⟨50, _⟩ => ⟨S1x1, .i32⟩
  | .hbm, ⟨51, _⟩ => ⟨S600000x1, .i32⟩
  | .hbm, ⟨52, _⟩ => ⟨S600000x1, .i1⟩
  | .hbm, ⟨53, _⟩ => ⟨S600000x1, .i1⟩
  | .hbm, ⟨54, _⟩ => ⟨S_, .i1⟩
  | .hbm, ⟨55, _⟩ => ⟨S600000, .i1⟩
  | .hbm, ⟨56, _⟩ => ⟨S600000x128, .f32⟩
  | .hbm, ⟨57, _⟩ => ⟨S600000x128, .i1⟩
  | .hbm, ⟨58, _⟩ => ⟨S_, .f32⟩
  | .hbm, ⟨59, _⟩ => ⟨S600000x128, .f32⟩
  | .hbm, ⟨60, _⟩ => ⟨S600000x128, .f32⟩
  | .hbm, ⟨61, _⟩ => ⟨S600000x128, .f32⟩
  | .hbm, ⟨62, _⟩ => ⟨S_, .f32⟩
  | .hbm, ⟨63, _⟩ => ⟨S100000x128, .f32⟩
  | .hbm, ⟨64, _⟩ => ⟨S600000x1, .i32⟩
  | .hbm, ⟨65, _⟩ => ⟨S100000x128, .f32⟩
  | .hbm, ⟨66, _⟩ => ⟨S100000x128, .f32⟩
  | .hbm, ⟨67, _⟩ => ⟨S100000x128, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S3000x128, .f32⟩
  | .local _ .vmem, ⟨9, _⟩ => ⟨S3000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v7 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v8 : Ref sig .tc := ⟨.hbm, 60, rfl⟩
abbrev main_v9 : Ref sig .tc := ⟨.hbm, 61, rfl⟩
abbrev main_cst : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bitsLt_bf16_f32 : FTy.bits .bf16 < FTy.bits .f32
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S128x128_S128x128_0_0 : ∀ a, (![0, 0] : Fin 2 → Nat) a + S128x128.size a ≤ S128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  dot_S3000x128_S128x128_S3000x128_1_0_0_1_n_n_wf : DotDims.WF S3000x128 S128x128 S3000x128 [1] [0] [0] [1] [] []
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S600000x128.size a
  hwx0_0 : ∀ i : grid0.Coords, EltTy.bits .f32 = 32 ∨ (Rect.block (s := S600000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S600000x128.size a
  hwx0_1 : ∀ i : grid0.Coords, EltTy.bits .f32 = 32 ∨ (Rect.block (s := S600000x128) S3000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x128.size a ≤ S600000x128.size a
  hwx0_6 : ∀ i : grid0.Coords, EltTy.bits .f32 = 32 ∨ (Rect.block (s := S600000x128) S3000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v7) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S3000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S128x128, .f32⟩
  | .hbm, ⟨31, _⟩ => ⟨S600000x128, .f32⟩
  | .hbm, ⟨32, _⟩ => ⟨S128x128, .f32⟩
  | .hbm, ⟨33, _⟩ => ⟨S600000x128, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S600000x128, .f32⟩
  | .hbm, ⟨42, _⟩ => ⟨S600000x128, .f32⟩
  | .hbm, ⟨43, _⟩ => ⟨S_, .f32⟩
  | .hbm, ⟨44, _⟩ => ⟨S600000x128, .f32⟩
  | .hbm, ⟨45, _⟩ => ⟨S600000x128, .f32⟩
  | .hbm, ⟨46, _⟩ => ⟨S600000x128, .f32⟩
  | .hbm, ⟨47, _⟩ => ⟨S1x128, .f32⟩
  | .hbm, ⟨48, _⟩ => ⟨S600000x128, .f32⟩
  | .hbm, ⟨49, _⟩ => ⟨S600000x128, .f32⟩
  | .hbm, ⟨50, _⟩ => ⟨S600000x128, .f32⟩
  | .hbm, ⟨51, _⟩ => ⟨S_, .f32⟩
  | .hbm, ⟨52, _⟩ => ⟨S100000x128, .f32⟩
  | .hbm, ⟨53, _⟩ => ⟨S600000x1, .i32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostSide.lean ====
/-
  What the host lines of the tiled program leave in its buffers, named by the stages of the plain program.

  Before the per-edge region the host slices the two rows of the edge list, wraps negative ids round by the number of
  nodes, gathers the rows of the node features at the wrapped ids, and replaces a gathered row by a filler wherever the
  wrapped id falls outside 0 … 99999; it also lays each bias out as a [1,128] row.  The wrapped ids and the gathered
  rows are the very terms the plain program computes (`val_main_v16`, `val_main_v17` for the senders, `val_main_v9`,
  `val_main_v10` for the receivers).  Between the regions the host adds the messages into the rows of their
  receivers; after the dense region it adds the two results.  Every statement here is the fold of those host lines
  read back, nothing more.
-/
import proofs.«409943_j27900107555156_3_alg».proof.Proof.Gen.KernelIdeal.Frame
import proofs.«409943_j27900107555156_3_alg».proof.Proof.Gen.ReferenceIdeal.Read
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.HostSide

open Cert.KernelIdeal Cert.KernelIdeal.Gen

variable {F : FTy → Type} [FloatOps F]
variable (m : (ℓ : Loc nD τ sig) → Buf (Elt F) ℓ) (ρ : Dev nD → PrngReg)

/-- For each edge, whether its wrapped id lies in 0 … 99999 (the conjunction over the id's one column). -/
def rangeMask (w : IVec S600000x1 32) : IVec S600000 1 :=
  Host.reduce IntOp.andi
    (andi (cmpi .sge w (broadcastInDim S600000x1 ![] bcast_S_S600000x1 (constantI S_ 32 0#32)))
      (cmpi .sle w (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

/-- Gathered rows with the filler where the id is out of range. -/
def filled (w : IVec S600000x1 32) (g : FVec F S600000x128 .f32) : FVec F S600000x128 .f32 :=
  select (broadcastInDim S600000x128 ![0] bcast_S600000_S600000x128_0 (rangeMask w)) g
    (broadcastInDim S600000x128 ![] bcast_S_S600000x128 (constant S_ .f32 0x7FC00000#32))

/-- A buffer that no operation of a stretch writes holds after the stretch what it held before it. -/
local macro "stretch_keeps" : tactic =>
  `(tactic| (refine StableHlo.after_of_forall_not_mem _ _ (List.forall_iff_forall_mem.mp ?_)
             simp only [hostOps0, hostOps0_1, hostOps0_2, hostOps1, hostOps2, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- Contents carried to a buffer's own type and back are the contents. -/
theorem ofBuf_toBuf {T : BufTy} (x : StableHlo.TRef sig T) (v : T.Contents (Elt F)) : x.ofBuf (x.toBuf v) = v := by
  obtain ⟨r, h, h2, h3⟩ := x
  subst h
  rfl

/-- After the first stretch the senders' ids are row 0 of the edge list, laid out as a vector. -/
theorem W1_v1 (c : Dev nD) :
    (W1 m ρ c (Proc.devRef .tc main_v1) : (⟨S600000, .i32⟩ : BufTy).Contents (Elt F))
      = Cert.ReferenceIdeal.Read.val_main_v1 (F := F) (m ((c : Thread nD τ).loc main_arg1)) := by
  show StableHlo.after hostOps0 _ (Proc.devRef .tc main_v1) = _
  after_results
  rfl

/-- … and the receivers' ids are row 1. -/
theorem W1_v3 (c : Dev nD) :
    (W1 m ρ c (Proc.devRef .tc main_v3) : (⟨S600000, .i32⟩ : BufTy).Contents (Elt F))
      = Cert.ReferenceIdeal.Read.val_main_v3 (F := F) (m ((c : Thread nD τ).loc main_arg1)) := by
  show StableHlo.after hostOps0 _ (Proc.devRef .tc main_v3) = _
  after_results
  rfl

/-- The first stretch leaves the node features as launched. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by stretch_keeps
    _ = m ((c : Thread nD τ).loc main_arg0) := rfl

/-- The same three readings, through the typed references the gathers' lines use. -/
theorem ofBuf_v1 (c : Dev nD) (p1 p2 p3) :
    (StableHlo.TRef.of main_v1 p1 p2 p3 : StableHlo.TRef sig ⟨S600000, .i32⟩).ofBuf (W1 m ρ c (Proc.devRef .tc main_v1))
      = Cert.ReferenceIdeal.Read.val_main_v1 (F := F) (m ((c : Thread nD τ).loc main_arg1)) :=
  cast_eq_iff_heq.mpr (heq_of_eq (W1_v1 m ρ c))
theorem ofBuf_arg0 (c : Dev nD) (p1 p2 p3) :
    (StableHlo.TRef.of main_arg0 p1 p2 p3 : StableHlo.TRef sig ⟨S100000x128, .f32⟩).ofBuf (W1 m ρ c (Proc.devRef .tc main_arg0))
      = m ((c : Thread nD τ).loc main_arg0) :=
  cast_eq_iff_heq.mpr (heq_of_eq (W1_arg0 m ρ c))

/-- After the second stretch the receivers' ids and the node features are still what the first left. -/
theorem W2_v3 (c : Dev nD) :
    (W2 m ρ c (Proc.devRef .tc main_v3) : (⟨S600000, .i32⟩ : BufTy).Contents (Elt F))
      = Cert.ReferenceIdeal.Read.val_main_v3 (F := F) (m ((c : Thread nD τ).loc main_arg1)) :=
  calc W2 m ρ c (Proc.devRef .tc main_v3)
    _ = W1 m ρ c (Proc.devRef .tc main_v3) := by stretch_keeps
    _ = Cert.ReferenceIdeal.Read.val_main_v3 (F := F) (m ((c : Thread nD τ).loc main_arg1)) := W1_v3 m ρ c
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by stretch_keeps
    _ = m ((c : Thread nD τ).loc main_arg0) := W1_arg0 m ρ c
theorem ofBuf_v3 (c : Dev nD) (p1 p2 p3) :
    (StableHlo.TRef.of main_v3 p1 p2 p3 : StableHlo.TRef sig ⟨S600000, .i32⟩).ofBuf (W2 m ρ c (Proc.devRef .tc main_v3))
      = Cert.ReferenceIdeal.Read.val_main_v3 (F := F) (m ((c : Thread nD τ).loc main_arg1)) :=
  cast_eq_iff_heq.mpr (heq_of_eq (W2_v3 m ρ c))
theorem ofBuf_arg0' (c : Dev nD) (p1 p2 p3) :
    (StableHlo.TRef.of main_arg0 p1 p2 p3 : StableHlo.TRef sig ⟨S100000x128, .f32⟩).ofBuf (W2 m ρ c (Proc.devRef .tc main_arg0))
      = m ((c : Thread nD τ).loc main_arg0) :=
  cast_eq_iff_heq.mpr (heq_of_eq (W2_arg0 m ρ c))

/-- The per-edge region's first operand: the senders' rows, filled. -/
theorem entry_send (c : Dev nD) :
    (V3 m ρ c main_v7 : FVec F S600000x128 .f32)
      = filled (F := F) (Cert.ReferenceIdeal.Read.val_main_v16 (F := F) (m ((c : Thread nD τ).loc main_arg1)))
          (Cert.ReferenceIdeal.Read.val_main_v17 (F := F) (m ((c : Thread nD τ).loc main_arg0)) (m ((c : Thread nD τ).loc main_arg1))) :=
  calc W3 m ρ c (Proc.devRef .tc main_v7)
    _ = W2 m ρ c (Proc.devRef .tc main_v7) := by stretch_keeps
    _ = filled (F := F) (Cert.ReferenceIdeal.Read.val_main_v16 (F := F) (m ((c : Thread nD τ).loc main_arg1)))
          (Cert.ReferenceIdeal.Read.val_main_v17 (F := F) (m ((c : Thread nD τ).loc main_arg0)) (m ((c : Thread nD τ).loc main_arg1))) := by
        -- the second stretch's lines, read one by one from what the first stretch left
        show StableHlo.after hostOps0_1 (W1 m ρ c) (Proc.devRef .tc main_v7) = _
        generalize hV : W1 m ρ c = V
        after_results_simp
        simp only [ofBuf_toBuf]
        subst hV
        simp only [ofBuf_v1 m ρ c, ofBuf_arg0 m ρ c]
        refine cast_eq_iff_heq.mpr (heq_of_eq ?_)
        -- the plain program's stages 11 … 17 are the same operations on the same row of the edge list
        unfold filled rangeMask
        simp only [Cert.ReferenceIdeal.Read.val_main_v17, Cert.ReferenceIdeal.Read.val_main_v16, Cert.ReferenceIdeal.Read.val_main_v15,
          Cert.ReferenceIdeal.Read.val_main_v14, Cert.ReferenceIdeal.Read.val_main_v13, Cert.ReferenceIdeal.Read.val_main_v12,
          Cert.ReferenceIdeal.Read.val_main_v11, Cert.ReferenceIdeal.Read.val_main_c_1, Cert.ReferenceIdeal.Read.val_main_c_2]
        rfl

/-- Its second operand: the receivers' rows, filled. -/
theorem entry_rec (c : Dev nD) :
    (V3 m ρ c main_v8 : FVec F S600000x128 .f32)
      = filled (F := F) (Cert.ReferenceIdeal.Read.val_main_v9 (F := F) (m ((c : Thread nD τ).loc main_arg1)))
          (Cert.ReferenceIdeal.Read.val_main_v10 (F := F) (m ((c : Thread nD τ).loc main_arg0)) (m ((c : Thread nD τ).loc main_arg1))) := by
  -- the third stretch's lines, read one by one from what the second stretch left
  show StableHlo.after hostOps0_2 (W2 m ρ c) (Proc.devRef .tc main_v8) = _
  generalize hV : W2 m ρ c = V
  after_results_simp
  simp only [ofBuf_toBuf]
  subst hV
  simp only [ofBuf_v3 m ρ c, ofBuf_arg0' m ρ c]
  refine cast_eq_iff_heq.mpr (heq_of_eq ?_)
  -- the plain program's stages 4 … 10 are the same operations on the same row of the edge list
  unfold filled rangeMask
  simp only [Cert.ReferenceIdeal.Read.val_main_v10, Cert.ReferenceIdeal.Read.val_main_v9, Cert.ReferenceIdeal.Read.val_main_v8,
    Cert.ReferenceIdeal.Read.val_main_v7, Cert.ReferenceIdeal.Read.val_main_v6, Cert.ReferenceIdeal.Read.val_main_v5,
    Cert.ReferenceIdeal.Read.val_main_v4, Cert.ReferenceIdeal.Read.val_main_c, Cert.ReferenceIdeal.Read.val_main_c_0]
  rfl

/-- The weights reach the per-edge region as launched. -/
theorem entry_Wg (c : Dev nD) : V3 m ρ c main_arg2 = m ((c : Thread nD τ).loc main_arg2) :=
  calc W3 m ρ c (Proc.devRef .tc main_arg2)
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl
theorem entry_Ws (c : Dev nD) : V3 m ρ c main_arg4 = m ((c : Thread nD τ).loc main_arg4) :=
  calc W3 m ρ c (Proc.devRef .tc main_arg4)
    _ = W2 m ρ c (Proc.devRef .tc main_arg4) := by stretch_keeps
    _ = W1 m ρ c (Proc.devRef .tc main_arg4) := by stretch_keeps
    _ = W0 m ρ c (Proc.devRef .tc main_arg4) := by stretch_keeps
    _ = m ((c : Thread nD τ).loc main_arg4) := rfl
/-- The gate's and the message's bias as [1,128] rows. -/
theorem entry_bg (c : Dev nD) :
    (V3 m ρ c main_v4 : FVec F S1x128 .f32) = shapeCast S1x128 (m ((c : Thread nD τ).loc main_arg3) : FVec F S128 .f32) shapeCasts_S128_S1x128 :=
  calc W3 m ρ c (Proc.devRef .tc main_v4)
    _ = W2 m ρ c (Proc.devRef .tc main_v4) := by stretch_keeps
    _ = W1 m ρ c (Proc.devRef .tc main_v4) := by stretch_keeps
    _ = shapeCast S1x128 (m ((c : Thread nD τ).loc main_arg3) : FVec F S128 .f32) shapeCasts_S128_S1x128 := by
        show StableHlo.after hostOps0 _ (Proc.devRef .tc main_v4) = _
        after_results
        rfl
theorem entry_bs (c : Dev nD) :
    (V3 m ρ c main_v5 : FVec F S1x128 .f32) = shapeCast S1x128 (m ((c : Thread nD τ).loc main_arg5) : FVec F S128 .f32) shapeCasts_S128_S1x128 :=
  calc W3 m ρ c (Proc.devRef .tc main_v5)
    _ = W2 m ρ c (Proc.devRef .tc main_v5) := by stretch_keeps
    _ = W1 m ρ c (Proc.devRef .tc main_v5) := by stretch_keeps
    _ = shapeCast S1x128 (m ((c : Thread nD τ).loc main_arg5) : FVec F S128 .f32) shapeCasts_S128_S1x128 := by
        show StableHlo.after hostOps0 _ (Proc.devRef .tc main_v5) = _
        after_results
        rfl

/-- The dense region's operands: the node features and the weight as launched, the bias as a [1,128] row. -/
theorem entry_h (c : Dev nD) : V5 m ρ c main_arg0 = m ((c : Thread nD τ).loc main_arg0) :=
  calc W5 m ρ c (Proc.devRef .tc main_arg0)
    _ = W4 m ρ c (Proc.devRef .tc main_arg0) := by stretch_keeps
    _ = W3 m ρ c (Proc.devRef .tc main_arg0) := W4_of_ne m ρ c main_arg0 (by decide)
    _ = W2 m ρ c (Proc.devRef .tc main_arg0) := by stretch_keeps
    _ = W1 m ρ c (Proc.devRef .tc main_arg0) := by stretch_keeps
    _ = W0 m ρ c (Proc.devRef .tc main_arg0) := by stretch_keeps
    _ = m ((c : Thread nD τ).loc main_arg0) := rfl
theorem entry_Wr (c : Dev nD) : V5 m ρ c main_arg6 = m ((c : Thread nD τ).loc main_arg6) :=
  calc W5 m ρ c (Proc.devRef .tc main_arg6)
    _ = W4 m ρ c (Proc.devRef .tc main_arg6) := by stretch_keeps
    _ = W3 m ρ c (Proc.devRef .tc main_arg6) := W4_of_ne m ρ c main_arg6 (by decide)
    _ = W2 m ρ c (Proc.devRef .tc main_arg6) := by stretch_keeps
    _ = W1 m ρ c (Proc.devRef .tc main_arg6) := by stretch_keeps
    _ = W0 m ρ c (Proc.devRef .tc main_arg6) := by stretch_keeps
    _ = m ((c : Thread nD τ).loc main_arg6) := rfl
theorem entry_br (c : Dev nD) :
    (V5 m ρ c main_v6 : FVec F S1x128 .f32) = shapeCast S1x128 (m ((c : Thread nD τ).loc main_arg7) : FVec F S128 .f32) shapeCasts_S128_S1x128 :=
  calc W5 m ρ c (Proc.devRef .tc main_v6)
    _ = W4 m ρ c (Proc.devRef .tc main_v6) := by stretch_keeps
    _ = W3 m ρ c (Proc.devRef .tc main_v6) := W4_of_ne m ρ c main_v6 (by decide)
    _ = W2 m ρ c (Proc.devRef .tc main_v6) := by stretch_keeps
    _ = W1 m ρ c (Proc.devRef .tc main_v6) := by stretch_keeps
    _ = shapeCast S1x128 (m ((c : Thread nD τ).loc main_arg7) : FVec F S128 .f32) shapeCasts_S128_S1x128 := by
        show StableHlo.after hostOps0 _ (Proc.devRef .tc main_v6) = _
        after_results
        rfl

/-- Between the regions the receivers' ids are still row 1 of the edge list: the per-edge region writes no id. -/
theorem W4_v3 (c : Dev nD) :
    (W4 m ρ c (Proc.devRef .tc main_v3) : (⟨S600000, .i32⟩ : BufTy).Contents (Elt F))
      = Cert.ReferenceIdeal.Read.val_main_v3 (F := F) (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by stretch_keeps
    _ = Cert.ReferenceIdeal.Read.val_main_v3 (F := F) (m ((c : Thread nD τ).loc main_arg1)) := W2_v3 m ρ c

/-- The messages' buffer after the per-edge region is that region's array. -/
theorem W4_v9 (c : Dev nD) :
    (W4 m ρ c (Proc.devRef .tc main_v9) : FVec F S600000x128 .f32) = (dat0 (V3 m ρ) c).arrAt 6 cfg0.N :=
  W4_arr m ρ c 6

/-- The scatter-add of the fourth stretch: from zeros, at the receivers' ids as a column, of the messages. -/
theorem W5_v12 (c : Dev nD) :
    (W5 m ρ c (Proc.devRef .tc main_v12) : FVec F S100000x128 .f32)
      = Host.scatterAdd scatter_S100000x128_S600000x1_S600000x128_1_0_0_1
          (broadcastInDim S100000x128 ![] bcast_S_S100000x128 (constant (F := F) S_ .f32 0x00000000#32))
          (broadcastInDim S600000x1 ![0] bcast_S600000_S600000x1_0
            (W4 m ρ c (Proc.devRef .tc main_v3) : (⟨S600000, .i32⟩ : BufTy).Contents (Elt F)))
          (W4 m ρ c (Proc.devRef .tc main_v9) : FVec F S600000x128 .f32) := by
  show StableHlo.after hostOps1 (W4 m ρ c) (Proc.devRef .tc main_v12) = _
  after_results

/-- The program's result: the dense region's array plus the messages added into their receivers' rows
    (the receivers' ids unwrapped, as the plain program passes them: `val_main_v38`; from zeros: `val_main_v37`). -/
theorem result (c : Dev nD) :
    (W7 m ρ c (Proc.devRef .tc main_v14) : FVec F S100000x128 .f32)
      = addf ((dat1 (V5 m ρ) c).arrAt 3 cfg1.N : FVec F S100000x128 .f32)
          (Host.scatterAdd scatter_S100000x128_S600000x1_S600000x128_1_0_0_1
            (Cert.ReferenceIdeal.Read.val_main_v37 (F := F))
            (Cert.ReferenceIdeal.Read.val_main_v38 (F := F) (m ((c : Thread nD τ).loc main_arg1)))
            ((dat0 (V3 m ρ) c).arrAt 6 cfg0.N : FVec F S600000x128 .f32)) := by
  -- the last stretch adds the dense region's array and the scatter-add's
  have h14 : (W7 m ρ c (Proc.devRef .tc main_v14) : FVec F S100000x128 .f32)
      = addf (W6 m ρ c (Proc.devRef .tc main_v13) : FVec F S100000x128 .f32)
          (W6 m ρ c (Proc.devRef .tc main_v12) : FVec F S100000x128 .f32) := by
    show StableHlo.after hostOps2 (W6 m ρ c) (Proc.devRef .tc main_v14) = _
    after_results
  have h13 : (W6 m ρ c (Proc.devRef .tc main_v13) : FVec F S100000x128 .f32) = (dat1 (V5 m ρ) c).arrAt 3 cfg1.N :=
    W6_arr m ρ c 3
  have h12 : (W6 m ρ c (Proc.devRef .tc main_v12) : FVec F S100000x128 .f32) = W5 m ρ c (Proc.devRef .tc main_v12) :=
    W6_of_ne m ρ c main_v12 (by decide)
  rw [h14, h13, h12, W5_v12, W4_v3, W4_v9]
  unfold Cert.ReferenceIdeal.Read.val_main_v37 Cert.ReferenceIdeal.Read.val_main_v38 Cert.ReferenceIdeal.Read.val_main_cst_4
  rfl

end Cert.KernelIdeal.HostSide

end
-- ==== Proof.IndexRange.lean ====
/-
  Under the precondition every id of the edge list lies in -100000 … 99999, so its wrap-around (the id plus 100000
  when negative) lies in 0 … 99999; the range test the tiled program makes on every wrapped id then passes, no
  gathered row is replaced by the filler, and the two arrays the per-edge region reads are the plain program's
  gathered arrays.
-/
import proofs.«409943_j27900107555156_3_alg».proof.Proof.HostSide
import proofs.«409943_j27900107555156_3_alg».proof.Defs
import proofs.«409943_j27900107555156_3_alg».proof.Proof.Gen.Pre_finite_inputs
import Idealize.ShloMosaic.Lib.StableHlo.Predicate
import Idealize.ShloMosaic.Lib.ReduceAll

noncomputable section

open Idealize.ShloMosaic Idealize.ShloMosaic.TcCoe Idealize.SL.Sem

namespace Cert.KernelIdeal.IndexRange

open Cert.KernelIdeal Cert.KernelIdeal.Gen Cert.KernelIdeal.HostSide

variable (m : (ℓ : Loc nD τ sig) → Buf (Elt Ideal) ℓ) (ρ : Dev nD → PrngReg)

/-- A rank-zero array has one index. -/
instance : Subsingleton (⟨0, ![]⟩ : Shape).Idx := ⟨fun a b => funext fun d => d.elim0⟩

/-- The precondition's last conjunct, entry by entry: every id is at least -100000 and below 100000. -/
theorem ids_in_range (hpre : Cert.Pre_KernelIdeal m) (c : Dev nD) (i : S2x600000.Idx) :
    -100000 ≤ ((m ((c : Thread nD τ).loc main_arg1) : IVec S2x600000 32) i).toInt
      ∧ ((m ((c : Thread nD τ).loc main_arg1) : IVec S2x600000 32) i).toInt < 100000 := by
  have e := congrFun (hpre c) ValueIdx.ix0
  dsimp only [Cert.Pre_finite_inputs.fn, Cert.Pre_finite_inputs.fn_part1, Cert.Pre_finite_inputs.fn_part2] at e
  -- the whole predicate is a conjunction whose last member is the test on the ids
  change IntOp.andi _ _ = 1#1 at e
  have e2 := (IntOp.andi_eq_one.1 e).2
  -- that member is a conjunction over all entries: read it at entry i
  have e3 := Host.reduce_andi_all _ _ _ _ _ e2 i
  change IntOp.andi (IntOp.cmpi .sge ((m ((c : Thread nD τ).loc main_arg1) : IVec S2x600000 32) i) 4294867296#32)
    (IntOp.cmpi .slt ((m ((c : Thread nD τ).loc main_arg1) : IVec S2x600000 32) i) 100000#32) = 1#1 at e3
  obtain ⟨ha, hb⟩ := IntOp.andi_eq_one.1 e3
  have hlo : (4294867296#32 : BitVec 32).toInt = -100000 := by decide
  have hhi : (100000#32 : BitVec 32).toInt = 100000 := by decide
  have ha' := IntOp.cmpi_sge.1 ha
  have hb' := IntOp.cmpi_slt.1 hb
  rw [hlo] at ha'
  rw [hhi] at hb'
  exact ⟨ha', hb'⟩

/-- A word in -100000 … 99999, wrapped round by 100000 when negative, passes the test 0 ≤ · ≤ 99999. -/
theorem wrapped_passes (a : BitVec 32) (h1 : -100000 ≤ a.toInt) (h2 : a.toInt < 100000) :
    IntOp.andi (IntOp.cmpi .sge (Scalar.select (IntOp.cmpi .slt a 0#32) (IntOp.addi a 100000#32) a) 0#32)
      (IntOp.cmpi .sle (Scalar.select (IntOp.cmpi .slt a 0#32) (IntOp.addi a 100000#32) a) 99999#32) = 1#1 := by
  have h0 : (0#32 : BitVec 32).toInt = 0 := by decide
  have h9 : (99999#32 : BitVec 32).toInt = 99999 := by decide
  have hk : (100000#32 : BitVec 32).toInt = 100000 := by decide
  rw [IntOp.andi_eq_one, IntOp.cmpi_sge, IntOp.cmpi_sle, h0, h9]
  by_cases hneg : a.toInt < 0
  · -- a negative id: the wrapped id is a + 100000, and the sum does not leave the 32-bit range
    have hc : IntOp.cmpi .slt a 0#32 = 1#1 := IntOp.cmpi_slt.2 (by rw [h0]; exact hneg)
    rw [hc, ValueIdx.select_one]
    have hs : (IntOp.addi a 100000#32).toInt = a.toInt + 100000 := by
      unfold IntOp.addi
      rw [BitVec.toInt_add, hk]
      exact Int.bmod_eq_of_le (by omega) (by omega)
    rw [hs]
    omega
  · -- a non-negative id is its own wrap-around
    have hc : IntOp.cmpi .slt a 0#32 = 0#1 :=
      ValueIdx.eq_zero_of_ne_one (fun h => hneg (by have := IntOp.cmpi_slt.1 h; rwa [h0] at this))
    rw [hc, ValueIdx.select_zero]
    omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_one f hf l

/-- With every wrapped id in 0 … 99999 the range test holds at every edge. -/
theorem rangeMask_one (w : IVec S600000x1 32)
    (hw : ∀ i : S600000x1.Idx, IntOp.andi (IntOp.cmpi .sge (w i) 0#32) (IntOp.cmpi .sle (w i) 99999#32) = 1#1)
    (j : S600000.Idx) : rangeMask w j = 1#1 := by
  unfold rangeMask
  rw [Host.reduce_eq_foldl]
  exact foldl_andi_one _ hw _

/-- Then no gathered row is replaced by the filler. -/
theorem filled_of_pass {F : FTy → Type} [FloatOps F] (w : IVec S600000x1 32) (g : FVec F S600000x128 .f32)
    (hw : ∀ i : S600000x1.Idx, IntOp.andi (IntOp.cmpi .sge (w i) 0#32) (IntOp.cmpi .sle (w i) 99999#32) = 1#1) :
    filled w g = g := by
  have hmask : rangeMask w = fun _ => 1#1 := funext fun j => rangeMask_one w hw j
  funext i
  unfold filled
  rw [hmask]
  exact ValueIdx.select_one _ _

/-- The senders' wrapped ids pass the range test. -/
theorem send_ids_pass (hpre : Cert.Pre_KernelIdeal m) (c : Dev nD) (i : S600000x1.Idx) :
    IntOp.andi
      (IntOp.cmpi .sge (Cert.ReferenceIdeal.Read.val_main_v16 (F := Ideal) (m ((c : Thread nD τ).loc main_arg1)) i) 0#32)
      (IntOp.cmpi .sle (Cert.ReferenceIdeal.Read.val_main_v16 (F := Ideal) (m ((c : Thread nD τ).loc main_arg1)) i) 99999#32) = 1#1 := by
  rw [Cert.ReferenceIdeal.Read.val_main_v16_apply, Cert.ReferenceIdeal.Read.val_main_v15_apply,
    Cert.ReferenceIdeal.Read.val_main_v12_apply, Cert.ReferenceIdeal.Read.val_main_v14_apply,
    Cert.ReferenceIdeal.Read.val_main_v11_apply, Cert.ReferenceIdeal.Read.val_main_v13_apply,
    Cert.ReferenceIdeal.Read.val_main_c_1_apply, Cert.ReferenceIdeal.Read.val_main_c_2_apply,
    Cert.ReferenceIdeal.Read.val_main_v1_apply, Cert.ReferenceIdeal.Read.val_main_v0_apply]
  exact wrapped_passes _ (ids_in_range m hpre c _).1 (ids_in_range m hpre c _).2

/-- The receivers' wrapped ids pass the range test. -/
theorem rec_ids_pass (hpre : Cert.Pre_KernelIdeal m) (c : Dev nD) (i : S600000x1.Idx) :
    IntOp.andi
      (IntOp.cmpi .sge (Cert.ReferenceIdeal.Read.val_main_v9 (F := Ideal) (m ((c : Thread nD τ).loc main_arg1)) i) 0#32)
      (IntOp.cmpi .sle (Cert.ReferenceIdeal.Read.val_main_v9 (F := Ideal) (m ((c : Thread nD τ).loc main_arg1)) i) 99999#32) = 1#1 := by
  rw [Cert.ReferenceIdeal.Read.val_main_v9_apply, Cert.ReferenceIdeal.Read.val_main_v8_apply,
    Cert.ReferenceIdeal.Read.val_main_v5_apply, Cert.ReferenceIdeal.Read.val_main_v7_apply,
    Cert.ReferenceIdeal.Read.val_main_v4_apply, Cert.ReferenceIdeal.Read.val_main_v6_apply,
    Cert.ReferenceIdeal.Read.val_main_c_apply, Cert.ReferenceIdeal.Read.val_main_c_0_apply,
    Cert.ReferenceIdeal.Read.val_main_v3_apply, Cert.ReferenceIdeal.Read.val_main_v2_apply]
  exact wrapped_passes _ (ids_in_range m hpre c _).1 (ids_in_range m hpre c _).2

/-- With every wrapped id in range nothing is filled: the senders' rows are the plain program's. -/
theorem send_rows (hpre : Cert.Pre_KernelIdeal m) (c : Dev nD) :
    (V3 m ρ c main_v7 : FVec Ideal S600000x128 .f32)
      = Cert.ReferenceIdeal.Read.val_main_v17 (F := Ideal) (m ((c : Thread nD τ).loc main_arg0)) (m ((c : Thread nD τ).loc main_arg1)) :=
  (entry_send (F := Ideal) m ρ c).trans (filled_of_pass _ _ (send_ids_pass m hpre c))

/-- And the receivers' rows. -/
theorem rec_rows (hpre : Cert.Pre_KernelIdeal m) (c : Dev nD) :
    (V3 m ρ c main_v8 : FVec Ideal S600000x128 .f32)
      = Cert.ReferenceIdeal.Read.val_main_v10 (F := Ideal) (m ((c : Thread nD τ).loc main_arg0)) (m ((c : Thread nD τ).loc main_arg1)) :=
  (entry_rec (F := Ideal) m ρ c).trans (filled_of_pass _ _ (rec_ids_pass m hpre c))

end Cert.KernelIdeal.IndexRange

end
-- ==== Proof.Spec.lean ====
/-
  The mathematics of one gated message-passing layer, index by index, on the extended reals.

  For an edge `e` with sender features `hs e` and receiver features `hr e` (two rows of 128 numbers) and a feature
  `j`, the gate is the logistic function of
      sum_k hr(e,k) * Wg(k,j)  +  sum_k hs(e,k) * Wg(128+k,j)  +  bg(j)
  and the message is the gate times  sum_k hs(e,k) * Ws(k,j) + bs(j).  A node's dense part is
      sum_k h(n,k) * Wr(k,j) + br(j).
  Both programs compute exactly these, in this association of the sums; what differs between them is only how the
  rows are tiled, which format the factors pass through on the way into a product (no change on the extended
  reals), and how the bias row is laid out before it is added.
-/
import Idealize.ShloMosaic.PureOps.Ideal
import Idealize.ShloMosaic.Lib.ValueIdx

noncomputable section

open scoped BigOperators

namespace Cert.GatedLayer

open Idealize.ShloMosaic Idealize.ShloMosaic.ValueIdx

abbrev SNodes : Shape := ⟨2, ![100000, 128]⟩
abbrev SEdges : Shape := ⟨2, ![600000, 128]⟩
abbrev SGate : Shape := ⟨2, ![256, 128]⟩
abbrev SSq : Shape := ⟨2, ![128, 128]⟩
abbrev SVec : Shape := ⟨1, ![128]⟩
abbrev SRow : Shape := ⟨2, ![1, 128]⟩

/-- Row `k` of the upper half of the gate's weight (the half the receiver's features meet). -/
def upper (k : Fin 128) : Fin 256 := ⟨k.val, by omega⟩
/-- Row `128 + k`: the lower half (the half the sender's features meet). -/
def lower (k : Fin 128) : Fin 256 := ⟨128 + k.val, by omega⟩

/-- The gate's argument at edge `e`, feature `j`. -/
def gateArg (hs hr : FVec Ideal SEdges .f32) (Wg : FVec Ideal SGate .f32) (bg : FVec Ideal SVec .f32)
    (e : Fin 600000) (j : Fin 128) : EReal :=
  ((∑ k : Fin 128, hr (ix2 e k) * Wg (ix2 (upper k) j)) + (∑ k : Fin 128, hs (ix2 e k) * Wg (ix2 (lower k) j))) + bg (ix1 j)

/-- The message of edge `e` at feature `j`: the gate times the sender's projected features. -/
def msgAt (hs hr : FVec Ideal SEdges .f32) (Wg : FVec Ideal SGate .f32) (bg : FVec Ideal SVec .f32)
    (Ws : FVec Ideal SSq .f32) (bs : FVec Ideal SVec .f32) (e : Fin 600000) (j : Fin 128) : EReal :=
  Ideal.logistic (gateArg hs hr Wg bg e j) * ((∑ k : Fin 128, hs (ix2 e k) * Ws (ix2 k j)) + bs (ix1 j))

/-- All messages as one array. -/
def msgOf (hs hr : FVec Ideal SEdges .f32) (Wg : FVec Ideal SGate .f32) (bg : FVec Ideal SVec .f32)
    (Ws : FVec Ideal SSq .f32) (bs : FVec Ideal SVec .f32) : FVec Ideal SEdges .f32 :=
  fun i => msgAt hs hr Wg bg Ws bs (i 0) (i 1)

/-- The dense part of node `n` at feature `j`. -/
def denseAt (h : FVec Ideal SNodes .f32) (Wr : FVec Ideal SSq .f32) (br : FVec Ideal SVec .f32)
    (n : Fin 100000) (j : Fin 128) : EReal :=
  (∑ k : Fin 128, h (ix2 n k) * Wr (ix2 k j)) + br (ix1 j)

/-- The dense part as one array. -/
def denseOf (h : FVec Ideal SNodes .f32) (Wr : FVec Ideal SSq .f32) (br : FVec Ideal SVec .f32) : FVec Ideal SNodes .f32 :=
  fun i => denseAt h Wr br (i 0) (i 1)

/-- A [1,128] row read as a vector of 128. -/
def rowVec (x : FVec Ideal SRow .f32) : FVec Ideal SVec .f32 := fun j => x (ix2 (0 : Fin 1) (j 0))

theorem msgOf_apply (hs hr : FVec Ideal SEdges .f32) (Wg : FVec Ideal SGate .f32) (bg : FVec Ideal SVec .f32)
    (Ws : FVec Ideal SSq .f32) (bs : FVec Ideal SVec .f32) (e : Fin 600000) (j : Fin 128) :
    msgOf hs hr Wg bg Ws bs (ix2 e j) = msgAt hs hr Wg bg Ws bs e j := rfl

theorem denseOf_apply (h : FVec Ideal SNodes .f32) (Wr : FVec Ideal SSq .f32) (br : FVec Ideal SVec .f32)
    (n : Fin 100000) (j : Fin 128) : denseOf h Wr br (ix2 n j) = denseAt h Wr br n j := rfl

end Cert.GatedLayer

end
-- ==== Proof.EdgeRegion.lean ====
/-
  The per-edge region, read as one array: after its 200 grid points the message array holds, at edge `e` and
  feature `j`, the gate times the sender's projected features (`msgOf`), of whatever the region found in its
  operands' arrays.  Point `t` works on edges 3000 t … 3000 t + 2999; the weights and the bias rows are whole at
  every point; a product into a zero accumulator is the plain sum over the 128 shared features.
-/
import proofs.«409943_j27900107555156_3_alg».proof.Proof.Gen.KernelIdeal.Frame
import proofs.«409943_j27900107555156_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.EdgeRegion

open Cert.KernelIdeal Cert.KernelIdeal.Gen Cert.GatedLayer
open Idealize.ShloMosaic.ValueIdx
open scoped BigOperators

variable (V : (c : Dev nD) → (b : Ref sig .tc) → Buf (Elt Ideal) ((c : Thread nD τ).loc b))

/-! ## One product of the body, entry by entry

The body's three products are all of a [3000,128] block with a [128,128] weight, contracting the block's second axis
with the weight's first.  At output entry (p, q) and contraction index k the left factor sits at (p, k) and the right
factor at (k, q): the four coordinate facts below, one per operand axis. -/

theorem lhs_row (i : S3000x128.Idx) (q : dot_S3000x128_S128x128_S3000x128_1_0_0_1_n_n.contr.Idx) :
    (dot_S3000x128_S128x128_S3000x128_1_0_0_1_n_n.lhsIdx i q 0).val = (i 0).val := by
  unfold DotDims.lhsIdx
  rw [dif_neg (show ¬(0 : Fin S3000x128.rank) ∈ dot_S3000x128_S128x128_S3000x128_1_0_0_1_n_n.lhsBatch by decide), dif_pos (show (0 : Fin S3000x128.rank) ∈ dot_S3000x128_S128x128_S3000x128_1_0_0_1_n_n.lhsNonContracting by decide)]
  rfl
theorem lhs_col (i : S3000x128.Idx) (q : dot_S3000x128_S128x128_S3000x128_1_0_0_1_n_n.contr.Idx) :
    (dot_S3000x128_S128x128_S3000x128_1_0_0_1_n_n.lhsIdx i q 1).val = (q ⟨0, by decide⟩).val :=
  dot_S3000x128_S128x128_S3000x128_1_0_0_1_n_n.lhsIdx_val_of_single rfl i q
theorem rhs_row (i : S3000x128.Idx) (q : dot_S3000x128_S128x128_S3000x128_1_0_0_1_n_n.contr.Idx) :
    (dot_S3000x128_S128x128_S3000x128_1_0_0_1_n_n.rhsIdx i q 0).val = (q ⟨0, by decide⟩).val :=
  dot_S3000x128_S128x128_S3000x128_1_0_0_1_n_n.rhsIdx_val_of_single rfl i q
theorem rhs_col (i : S3000x128.Idx) (q : dot_S3000x128_S128x128_S3000x128_1_0_0_1_n_n.contr.Idx) :
    (dot_S3000x128_S128x128_S3000x128_1_0_0_1_n_n.rhsIdx i q 1).val = (i 1).val := by
  unfold DotDims.rhsIdx
  rw [dif_neg (show ¬(1 : Fin S128x128.rank) ∈ dot_S3000x128_S128x128_S3000x128_1_0_0_1_n_n.rhsBatch by decide), dif_pos (show (1 : Fin S128x128.rank) ∈ dot_S3000x128_S128x128_S3000x128_1_0_0_1_n_n.rhsNonContracting by decide)]
  rfl

/-- A product into the zero accumulator, at entry (p, q): the plain sum over the 128 shared features. -/
theorem product_at {φ₁ φ₂ : FTy} (a : FVec Ideal S3000x128 φ₁) (b : FVec Ideal S128x128 φ₂) (p : Fin 3000) (q : Fin 128) :
    matmul dot_S3000x128_S128x128_S3000x128_1_0_0_1_n_n none a b (constant (F := Ideal) S3000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S3000x128_S128x128_S3000x128_1_0_0_1_n_n 128 rfl rfl).symm]
  refine Finset.sum_congr rfl fun k _ => ?_
  have hk := ValueIdx.contrEquiv1_symm_val dot_S3000x128_S128x128_S3000x128_1_0_0_1_n_n 128 rfl rfl k
  have el : dot_S3000x128_S128x128_S3000x128_1_0_0_1_n_n.lhsIdx (ix2 p q) ((ValueIdx.contrEquiv1 dot_S3000x128_S128x128_S3000x128_1_0_0_1_n_n 128 rfl rfl).symm k) = ix2 p k := funext fun a => Fin.ext (by
    match a with
    | ⟨0, _⟩ => exact lhs_row _ _
    | ⟨1, _⟩ => exact (lhs_col _ _).trans hk)
  have er : dot_S3000x128_S128x128_S3000x128_1_0_0_1_n_n.rhsIdx (ix2 p q) ((ValueIdx.contrEquiv1 dot_S3000x128_S128x128_S3000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- A [1,128] row spread over the block's 3000 rows, at entry (p, q): the row's entry q. -/
theorem row_spread_at (x : FVec Ideal S1x128 .f32) (p : Fin 3000) (q : Fin 128) :
    broadcastTo S3000x128 x broadcasts_S1x128_S3000x128 (ix2 p q) = x (ix2 (0 : Fin 1) q) :=
  broadcastTo_apply x broadcasts_S1x128_S3000x128 (ix2 p q) (ix2 (0 : Fin 1) q) (fun a => by
    match a with
    | ⟨0, _⟩ => rfl
    | ⟨1, _⟩ => rfl)

/-- The body's stored value at entry (p, q) of its block, from the blocks and weights it loaded: the logistic function of
    (receiver rows times the gate weight's upper half, plus sender rows times its lower half, plus the gate bias), times
    (sender rows times the message weight, plus the message bias).  The passages through the narrow format change nothing
    on the extended reals. -/
theorem stored_at (v0 v3 : FVec Ideal S3000x128 .f32) (v6 v8 v10 : FVec Ideal S128x128 .f32) (v15 v21 : FVec Ideal S1x128 .f32)
    (p : Fin 3000) (q : Fin 128) :
    k0_pay1 (F := Ideal) v0 v3 v6 v8 v10 v15 v21 (ix2 p q)
      = Ideal.logistic (((∑ k : Fin 128, v3 (ix2 p k) * v6 (ix2 k q)) + (∑ k : Fin 128, v0 (ix2 p k) * v8 (ix2 k q))) + v15 (ix2 (0 : Fin 1) q))
        * ((∑ k : Fin 128, v0 (ix2 p k) * v10 (ix2 k q)) + v21 (ix2 (0 : Fin 1) q)) := by
  unfold k0_pay1
  simp only [shapeCast_self]
  rw [mulf_apply]
  show Ideal.logistic (addf (F := Ideal) _ _ (ix2 p q)) * addf (F := Ideal) _ _ (ix2 p q) = _
  rw [addf_apply, addf_apply, addf_apply, product_at, product_at, product_at, row_spread_at, row_spread_at]
  rfl

/-! ## From the blocks to the array

Point `t` of the region's 200 works on edges 3000 t … 3000 t + 2999: its sender, receiver and message blocks are those
rows of their arrays, all 128 features; the two weights and the two bias rows are whole at every point. -/

theorem zero_offsets : (![0, 0] : Fin 2 → Nat) = fun _ => 0 := funext fun a => by fin_cases a <;> rfl

/-- The printed block index maps over the grid: the three edge windows are at block (t, 0), the four whole windows at
    block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The edge that row `p` of point `t`'s blocks is. -/
def edgeOf (t : Fin cfg0.N) (p : Fin 3000) : Fin 600000 :=
  ⟨3000 * t.val + p.val, by have h := t.isLt; have hN : cfg0.N = 200 := N_0; have hp := p.isLt; omega⟩

theorem edgeOf_val (t : Fin cfg0.N) (p : Fin 3000) : (edgeOf t p).val = 3000 * t.val + p.val := rfl

/-- The arrays the region is entered with, each at its literal shape. -/
abbrev sendersArr (c : Dev nD) : FVec Ideal S600000x128 .f32 := V c main_v7
abbrev receiversArr (c : Dev nD) : FVec Ideal S600000x128 .f32 := V c main_v8
abbrev gateWArr (c : Dev nD) : FVec Ideal S256x128 .f32 := V c main_arg2
abbrev gateBArr (c : Dev nD) : FVec Ideal S1x128 .f32 := V c main_v4
abbrev msgWArr (c : Dev nD) : FVec Ideal S128x128 .f32 := V c main_arg4
abbrev msgBArr (c : Dev nD) : FVec Ideal S1x128 .f32 := V c main_v5

/-- The blocks point `t` finds in its input windows, each at its literal shape. -/
abbrev sendersBlk (c : Dev nD) (t : Fin cfg0.N) : FVec Ideal S3000x128 .f32 := iblk0 (F := Ideal) V c 0 t
abbrev receiversBlk (c : Dev nD) (t : Fin cfg0.N) : FVec Ideal S3000x128 .f32 := iblk0 (F := Ideal) V c 1 t
abbrev gateWBlk (c : Dev nD) (t : Fin cfg0.N) : FVec Ideal S256x128 .f32 := iblk0 (F := Ideal) V c 2 t
abbrev gateBBlk (c : Dev nD) (t : Fin cfg0.N) : FVec Ideal S1x128 .f32 := iblk0 (F := Ideal) V c 3 t
abbrev msgWBlk (c : Dev nD) (t : Fin cfg0.N) : FVec Ideal S128x128 .f32 := iblk0 (F := Ideal) V c 4 t
abbrev msgBBlk (c : Dev nD) (t : Fin cfg0.N) : FVec Ideal S1x128 .f32 := iblk0 (F := Ideal) V c 5 t

/-- Row `p` of point `t`'s sender block is the senders' row of edge `3000 t + p`. -/
theorem sendersBlk_at (c : Dev nD) (t : Fin cfg0.N) (p : Fin 3000) (k : Fin 128) :
    sendersBlk V c t (ix2 p k) = sendersArr V c (ix2 (edgeOf t p) k) := by
  obtain ⟨e0, e1, -⟩ := block_indices t
  show V c main_v7 (((cfg0.win 0).blk t).view.emb (ix2 p k)) = V c main_v7 (ix2 (edgeOf t p) k)
  have h : ((cfg0.win 0).blk t).view.emb (ix2 p k) = (ix2 (edgeOf t p) k : S600000x128.Idx) := by
    funext a; apply Fin.ext
    match a with
    | ⟨0, _⟩ => show win0_0.index t (0 : Fin 2) * 3000 + 1 * p.val = 3000 * t.val + p.val; omega
    | ⟨1, _⟩ => show win0_0.index t (1 : Fin 2) * 128 + 1 * k.val = k.val; omega
  rw [h]

/-- Row `p` of point `t`'s receiver block is the receivers' row of edge `3000 t + p`. -/
theorem receiversBlk_at (c : Dev nD) (t : Fin cfg0.N) (p : Fin 3000) (k : Fin 128) :
    receiversBlk V c t (ix2 p k) = receiversArr V c (ix2 (edgeOf t p) k) := by
  obtain ⟨-, -, e0, e1, -⟩ := block_indices t
  show V c main_v8 (((cfg0.win 1).blk t).view.emb (ix2 p k)) = V c main_v8 (ix2 (edgeOf t p) k)
  have h : ((cfg0.win 1).blk t).view.emb (ix2 p k) = (ix2 (edgeOf t p) k : S600000x128.Idx) := by
    funext a; apply Fin.ext
    match a with
    | ⟨0, _⟩ => show win0_1.index t (0 : Fin 2) * 3000 + 1 * p.val = 3000 * t.val + p.val; omega
    | ⟨1, _⟩ => show win0_1.index t (1 : Fin 2) * 128 + 1 * k.val = k.val; omega
  rw [h]

/-- The gate weight's block is the whole weight at every point. -/
theorem gateWBlk_at (c : Dev nD) (t : Fin cfg0.N) (r : Fin 256) (q : Fin 128) :
    gateWBlk V c t (ix2 r q) = gateWArr V c (ix2 r q) := by
  obtain ⟨-, -, -, -, e0, e1, -⟩ := block_indices t
  show V c main_arg2 (((cfg0.win 2).blk t).view.emb (ix2 r q)) = V c main_arg2 (ix2 r q)
  have h : ((cfg0.win 2).blk t).view.emb (ix2 r q) = (ix2 r q : S256x128.Idx) := by
    funext a; apply Fin.ext
    match a with
    | ⟨0, _⟩ => show win0_2.index t (0 : Fin 2) * 256 + 1 * r.val = r.val; omega
    | ⟨1, _⟩ => show win0_2.index t (1 : Fin 2) * 128 + 1 * q.val = q.val; omega
  rw [h]

/-- The gate bias row's block is the whole row at every point. -/
theorem gateBBlk_at (c : Dev nD) (t : Fin cfg0.N) (q : Fin 128) :
    gateBBlk V c t (ix2 (0 : Fin 1) q) = gateBArr V c (ix2 (0 : Fin 1) q) := by
  obtain ⟨-, -, -, -, -, -, e0, e1, -⟩ := block_indices t
  show V c main_v4 (((cfg0.win 3).blk t).view.emb (ix2 (0 : Fin 1) q)) = V c main_v4 (ix2 (0 : Fin 1) q)
  have h : ((cfg0.win 3).blk t).view.emb (ix2 (0 : Fin 1) q) = (ix2 (0 : Fin 1) q : S1x128.Idx) := by
    funext a; apply Fin.ext
    match a with
    | ⟨0, _⟩ => show win0_3.index t (0 : Fin 2) * 1 + 1 * (0 : Fin 1).val = (0 : Fin 1).val; omega
    | ⟨1, _⟩ => show win0_3.index t (1 : Fin 2) * 128 + 1 * q.val = q.val; omega
  rw [h]

/-- The message weight's block is the whole weight at every point. -/
theorem msgWBlk_at (c : Dev nD) (t : Fin cfg0.N) (k q : Fin 128) :
    msgWBlk V c t (ix2 k q) = msgWArr V c (ix2 k q) := by
  obtain ⟨-, -, -, -, -, -, -, -, e0, e1, -⟩ := block_indices t
  show V c main_arg4 (((cfg0.win 4).blk t).view.emb (ix2 k q)) = V c main_arg4 (ix2 k q)
  have h : ((cfg0.win 4).blk t).view.emb (ix2 k q) = (ix2 k q : S128x128.Idx) := by
    funext a; apply Fin.ext
    match a with
    | ⟨0, _⟩ => show win0_4.index t (0 : Fin 2) * 128 + 1 * k.val = k.val; omega
    | ⟨1, _⟩ => show win0_4.index t (1 : Fin 2) * 128 + 1 * q.val = q.val; omega
  rw [h]

/-- The message bias row's block is the whole row at every point. -/
theorem msgBBlk_at (c : Dev nD) (t : Fin cfg0.N) (q : Fin 128) :
    msgBBlk V c t (ix2 (0 : Fin 1) q) = msgBArr V c (ix2 (0 : Fin 1) q) := by
  obtain ⟨-, -, -, -, -, -, -, -, -, -, e0, e1, -⟩ := block_indices t
  show V c main_v5 (((cfg0.win 5).blk t).view.emb (ix2 (0 : Fin 1) q)) = V c main_v5 (ix2 (0 : Fin 1) q)
  have h : ((cfg0.win 5).blk t).view.emb (ix2 (0 : Fin 1) q) = (ix2 (0 : Fin 1) q : S1x128.Idx) := by
    funext a; apply Fin.ext
    match a with
    | ⟨0, _⟩ => show win0_5.index t (0 : Fin 2) * 1 + 1 * (0 : Fin 1).val = (0 : Fin 1).val; omega
    | ⟨1, _⟩ => show win0_5.index t (1 : Fin 2) * 128 + 1 * q.val = q.val; omega
  rw [h]

/-! ## What the body leaves in the message window's buffer, entry by entry -/

/-- The body's first load of the gate weight reads its rows 0 … 127: the half the receiver's features meet. -/
theorem upper_rows (x : Vec Ideal S256x128 .f32) (k q : Fin 128) :
    View.ld (Val := Elt Ideal) (e' := EltTy.f32) x r0_1 (ix2 k q) = x (ix2 (upper k) q) :=
  congrArg x (funext fun a => Fin.ext (by
    match a with
    | ⟨0, _⟩ => show 0 + 1 * k.val = k.val; omega
    | ⟨1, _⟩ => show 0 + 1 * q.val = q.val; omega))

/-- Its second load reads rows 128 … 255: the half the sender's features meet. -/
theorem lower_rows (x : Vec Ideal S256x128 .f32) (k q : Fin 128) :
    View.ld (Val := Elt Ideal) (e' := EltTy.f32) x r0_2 (ix2 k q) = x (ix2 (lower k) q) :=
  congrArg x (funext fun a => Fin.ext (by
    match a with
    | ⟨0, _⟩ => show 128 + 1 * k.val = 128 + k.val; omega
    | ⟨1, _⟩ => show 0 + 1 * q.val = q.val; omega))

/-- The body's loads of a whole buffer read the buffer: an edge block, -/
theorem edge_block_load (x : Vec Ideal S3000x128 .f32) (p : Fin 3000) (k : Fin 128) :
    View.ld (Val := Elt Ideal) (e' := EltTy.f32) x r0_0 (ix2 p k) = x (ix2 p k) :=
  congrFun (View.ld_unit_zero (S := S3000x128) zero_offsets _ x) (ix2 p k)
/-- the message weight, -/
theorem weight_load (x : Vec Ideal S128x128 .f32) (k q : Fin 128) :
    View.ld (Val := Elt Ideal) (e' := EltTy.f32) x r0_3 (ix2 k q) = x (ix2 k q) :=
  congrFun (View.ld_unit_zero (S := S128x128) zero_offsets _ x) (ix2 k q)
/-- and a bias row. -/
theorem row_load (x : Vec Ideal S1x128 .f32) (q : Fin 128) :
    View.ld (Val := Elt Ideal) (e' := EltTy.f32) x r0_4 (ix2 (0 : Fin 1) q) = x (ix2 (0 : Fin 1) q) :=
  congrFun (View.ld_unit_zero (S := S1x128) zero_offsets _ x) (ix2 (0 : Fin 1) q)

/-- After the body, entry (p, q) of the message window's buffer, from the six blocks the point found. -/
theorem left_at (x0 x1 : FVec Ideal S3000x128 .f32) (x2 : FVec Ideal S256x128 .f32) (x3 : FVec Ideal S1x128 .f32)
    (x4 : FVec Ideal S128x128 .f32) (x5 : FVec Ideal S1x128 .f32) (p : Fin 3000) (q : Fin 128) :
    out0_6 (F := Ideal) x0 x1 x2 x3 x4 x5 (ix2 p q)
      = Ideal.logistic (((∑ k : Fin 128, x1 (ix2 p k) * x2 (ix2 (upper k) q)) + (∑ k : Fin 128, x0 (ix2 p k) * x2 (ix2 (lower k) q))) + x3 (ix2 (0 : Fin 1) q))
        * ((∑ k : Fin 128, x0 (ix2 p k) * x4 (ix2 k q)) + x5 (ix2 (0 : Fin 1) q)) := by
  unfold out0_6
  rw [View.canon_unit_zero zero_offsets]
  refine (stored_at _ _ _ _ _ _ _ p q).trans ?_
  rw [row_load x3 q, row_load x5 q]
  refine congrArg₂ (fun a b : EReal => Ideal.logistic (a + x3 (ix2 (0 : Fin 1) q)) * (b + x5 (ix2 (0 : Fin 1) q))) ?_ ?_
  · refine congrArg₂ (fun a b : EReal => a + b) (Finset.sum_congr rfl fun k _ => ?_) (Finset.sum_congr rfl fun k _ => ?_)
    · rw [edge_block_load x1 p k, upper_rows x2 k q]
    · rw [edge_block_load x0 p k, lower_rows x2 k q]
  · refine Finset.sum_congr rfl fun k _ => ?_
    rw [edge_block_load x0 p k, weight_load x4 k q]

/-! ## The write-backs and the array -/

/-- The messages, as one array of what the region was entered with. -/
abbrev msgArr (c : Dev nD) : FVec Ideal S600000x128 .f32 :=
  msgOf (sendersArr V c) (receiversArr V c) (gateWArr V c) (rowVec (gateBArr V c)) (msgWArr V c) (rowVec (msgBArr V c))

/-- What point `t` writes back is rows 3000 t … 3000 t + 2999 of the messages. -/
theorem flushed_eq (c : Dev nD) (t : Fin cfg0.N) :
    (dat0 (F := Ideal) V c).flushed 6 t = ((cfg0.win 6).blk t).view.read (Elt Ideal) (msgArr V c) := by
  show (cfg0.win 6).cut (grid0.coords t) ((dat0 (F := Ideal) V c).after 6 t) = _
  rw [after0_6]
  funext j
  obtain ⟨p, q, rfl⟩ : ∃ (p : Fin 3000) (q : Fin 128), j = ix2 p q := ⟨j 0, j 1, eq_ix2 j⟩
  obtain ⟨-, -, -, -, -, -, -, -, -, -, -, -, e0, e1⟩ := block_indices t
  have h : ((cfg0.win 6).blk t).view.emb (ix2 p q) = (ix2 (edgeOf t p) q : S600000x128.Idx) := by
    funext a; apply Fin.ext
    match a with
    | ⟨0, _⟩ => show win0_6.index t (0 : Fin 2) * 3000 + 1 * p.val = 3000 * t.val + p.val; omega
    | ⟨1, _⟩ => show win0_6.index t (1 : Fin 2) * 128 + 1 * q.val = q.val; omega
  show out0_6 (F := Ideal) (sendersBlk V c t) (receiversBlk V c t) (gateWBlk V c t) (gateBBlk V c t) (msgWBlk V c t) (msgBBlk V c t) (ix2 p q)
      = msgArr V c (((cfg0.win 6).blk t).view.emb (ix2 p q))
  rw [h]
  refine (left_at (sendersBlk V c t) (receiversBlk V c t) (gateWBlk V c t) (gateBBlk V c t) (msgWBlk V c t) (msgBBlk V c t) p q).trans ?_
  show _ = Ideal.logistic (((∑ k : Fin 128, receiversArr V c (ix2 (edgeOf t p) k) * gateWArr V c (ix2 (upper k) q))
        + (∑ k : Fin 128, sendersArr V c (ix2 (edgeOf t p) k) * gateWArr V c (ix2 (lower k) q))) + gateBArr V c (ix2 (0 : Fin 1) q))
      * ((∑ k : Fin 128, sendersArr V c (ix2 (edgeOf t p) k) * msgWArr V c (ix2 k q)) + msgBArr V c (ix2 (0 : Fin 1) q))
  rw [gateBBlk_at V c t q, msgBBlk_at V c t q]
  refine congrArg₂ (fun a b : EReal => Ideal.logistic (a + gateBArr V c (ix2 (0 : Fin 1) q)) * (b + msgBArr V c (ix2 (0 : Fin 1) q))) ?_ ?_
  · refine congrArg₂ (fun a b : EReal => a + b) (Finset.sum_congr rfl fun k _ => ?_) (Finset.sum_congr rfl fun k _ => ?_)
    · rw [receiversBlk_at V c t p k, gateWBlk_at V c t (upper k) q]
    · rw [sendersBlk_at V c t p k, gateWBlk_at V c t (lower k) q]
  · refine Finset.sum_congr rfl fun k _ => ?_
    rw [sendersBlk_at V c t p k, msgWBlk_at V c t k q]

/-- An index of the message array is in point `t`'s block iff each coordinate is in the block's range on its axis. -/
theorem mem_block (t : Fin cfg0.N) (i : S600000x128.Idx) :
    i ∈ ((cfg0.win 6).blk t).view.set ↔ ∀ a : Fin 2, win0_6.index t a * S3000x128.size a ≤ (i a).val ∧ (i a).val < win0_6.index t a * S3000x128.size a + S3000x128.size a := by
  show i ∈ ((View.whole main_v9).slice (win0_6.rect t)).set ↔ _
  rw [View.set_slice_whole, Rect.mem_set_unit]
  exact Iff.rfl

/-- Every edge is in some point's block: edge `e` in point `e / 3000`'s. -/
theorem covered (i : S600000x128.Idx) :
    ∃ t : Fin cfg0.N, (cfg0.win 6).flush t = true ∧ i ∈ ((cfg0.win 6).blk t).view.set := by
  have hN : cfg0.N = 200 := N_0
  have hi0 : (i 0).val < 600000 := (i 0).isLt
  have hi1 : (i 1).val < 128 := (i 1).isLt
  obtain ⟨t, ht⟩ : ∃ t : Fin cfg0.N, t.val = (i 0).val / 3000 := ⟨⟨(i 0).val / 3000, by omega⟩, rfl⟩
  obtain ⟨-, -, -, -, -, -, -, -, -, -, -, -, e0, e1⟩ := block_indices t
  refine ⟨t, flush0_6 t, ?_⟩
  rw [mem_block]
  intro a
  match a with
  | ⟨0, _⟩ => show win0_6.index t (0 : Fin 2) * 3000 ≤ (i 0).val ∧ (i 0).val < win0_6.index t (0 : Fin 2) * 3000 + 3000; omega
  | ⟨1, _⟩ => show win0_6.index t (1 : Fin 2) * 128 ≤ (i 1).val ∧ (i 1).val < win0_6.index t (1 : Fin 2) * 128 + 128; omega

/-- The message array after the region, as one function of the arrays the region was entered with. -/
theorem messages (c : Dev nD) :
    ((dat0 (F := Ideal) V c).arrAt 6 cfg0.N : FVec Ideal S600000x128 .f32)
      = msgOf (V c main_v7 : FVec Ideal S600000x128 .f32) (V c main_v8 : FVec Ideal S600000x128 .f32)
          (V c main_arg2 : FVec Ideal S256x128 .f32) (rowVec (V c main_v4 : FVec Ideal S1x128 .f32))
          (V c main_arg4 : FVec Ideal S128x128 .f32) (rowVec (V c main_v5 : FVec Ideal S1x128 .f32)) :=
  (dat0 (F := Ideal) V c).arrAt_eq_of_cover 6 (msgArr V c) (fun t _ => flushed_eq V c t) covered

end Cert.KernelIdeal.EdgeRegion

end
-- ==== Proof.DenseRegion.lean ====
/-
  The dense region, read as one array: after its 20 grid points the output holds, at node `n` and feature `j`,
  sum_k h(n,k) * Wr(k,j) + br(j) (`denseOf`) of whatever the region found in its operands' arrays.  Point `t` works on
  nodes 5000 t … 5000 t + 4999; the weight and the bias row are whole at every point.
-/
import proofs.«409943_j27900107555156_3_alg».proof.Proof.Gen.KernelIdeal.Frame
import proofs.«409943_j27900107555156_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.DenseRegion

open Cert.KernelIdeal Cert.KernelIdeal.Gen Cert.GatedLayer

/-! ## The block product's operand indices

At output index `i` and contraction index `q` the left operand is read at (row of `i`, `q`) and the right operand at
(`q`, column of `i`): one fact per axis of each operand. -/

theorem lhs_dense_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dense_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dense_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dense_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at row `p`, column `q`: the sum over the 128 features `k` of the left block at (p, k) times the
    right block at (k, q). -/
theorem blockProduct_apply (a : FVec Ideal S5000x128 .bf16) (b : FVec Ideal S128x128 .bf16) (p : Fin 5000) (q : Fin 128) :
    FloatOps.matmul dot_S5000x128_S128x128_S5000x128_1_0_0_1_n_n none a b (constant S5000x128 .f32 0x00000000#32) (ix2 p q)
      = ∑ k : Fin 128, a (ix2 p k) * b (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_dense_0 _ _
    | ⟨1, _⟩ => exact (lhs_dense_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_dense_0 _ _).trans hk
    | ⟨1, _⟩ => exact rhs_dense_1 _ _)
  rw [el, er]

/-- What the body stores at row `p`, feature `q` of its block: the node's features times the weight's column `q`, plus
    the bias row at `q`. The two factors pass through a narrower format on the way into the product, which changes
    nothing on the extended reals; the bias row is broadcast down the 5000 rows. -/
theorem payload_apply (v0 : FVec Ideal S5000x128 .f32) (v2 : FVec Ideal S128x128 .f32) (v5 : FVec Ideal S1x128 .f32)
    (p : Fin 5000) (q : Fin 128) :
    k1_pay1 (F := Ideal) v0 v2 v5 (ix2 p q) = (∑ k : Fin 128, v0 (ix2 p k) * v2 (ix2 k q)) + v5 (ix2 (0 : Fin 1) q) := by
  unfold k1_pay1
  show FloatOps.matmul (F := Ideal) dot_S5000x128_S128x128_S5000x128_1_0_0_1_n_n none (truncf (F := Ideal) .bf16 v0 bitsLt_bf16_f32) (truncf (F := Ideal) .bf16 v2 bitsLt_bf16_f32) (constant (F := Ideal) S5000x128 .f32 0x00000000#32) (ix2 p q)
      + broadcastTo S5000x128 (shapeCast S1x128 v5 shapeCasts_S1x128_S1x128) broadcasts_S1x128_S5000x128 (ix2 p q) = _
  rw [blockProduct_apply, shapeCast_self, broadcastTo_1b_ab_apply]
  rfl

variable (V : (c : Dev nD) → (b : Ref sig .tc) → Buf (Elt Ideal) ((c : Thread nD τ).loc b))

/-! ## The blocks the body works on at a point

Point `t` is handed rows 5000 t … 5000 t + 4999 of the node features, the whole weight and the whole bias row, and its
output block is the same rows of the result. -/

theorem hz : (![0, 0] : Fin 2 → Nat) = fun _ => 0 := funext fun a => by fin_cases a <;> rfl

/-- The grid has 20 points. -/
theorem point_lt (t : Fin cfg1.N) : t.val < 20 := lt_of_lt_of_eq t.isLt N_1

/-- The block indices at point `t`, decided over the grid: the node features and the result move down by one block of
    rows per point, the weight and the bias row stay at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block of node features is node `5000 t + p`. -/
theorem nodes_block (c : Dev nD) (t : Fin cfg1.N) (p : Fin 5000) (k : Fin 128) (n : Fin 100000)
    (hn : n.val = 5000 * t.val + p.val) :
    (iblk1 (F := Ideal) V c 0 t : FVec Ideal S5000x128 .f32) (ix2 p k) = (V c main_arg0 : FVec Ideal S100000x128 .f32) (ix2 n k) := by
  obtain ⟨e0, e1, -⟩ := block_indices t
  unfold iblk1
  show V c main_arg0 (((cfg1.win 0).blk t).view.emb (ix2 p k)) = V c main_arg0 (ix2 n k)
  have he : ((cfg1.win 0).blk t).view.emb (ix2 p k) = ix2 n k := by
    funext a; apply Fin.ext
    match a with
    | ⟨0, _⟩ => show win1_0.index t (0 : Fin 2) * 5000 + 1 * p.val = n.val; omega
    | ⟨1, _⟩ => show win1_0.index t (1 : Fin 2) * 128 + 1 * k.val = k.val; omega
  rw [he]

/-- The weight's block is the whole weight at every point. -/
theorem weight_block (c : Dev nD) (t : Fin cfg1.N) (y : S128x128.Idx) :
    (iblk1 (F := Ideal) V c 1 t : FVec Ideal S128x128 .f32) y = (V c main_arg6 : FVec Ideal S128x128 .f32) y := by
  obtain ⟨-, -, e2, e3, -⟩ := block_indices t
  unfold iblk1
  show V c main_arg6 (((cfg1.win 1).blk t).view.emb y) = V c main_arg6 y
  have he : ((cfg1.win 1).blk t).view.emb y = y := by
    funext a; apply Fin.ext
    match a with
    | ⟨0, _⟩ => show win1_1.index t (0 : Fin 2) * 128 + 1 * (y 0).val = (y 0).val; omega
    | ⟨1, _⟩ => show win1_1.index t (1 : Fin 2) * 128 + 1 * (y 1).val = (y 1).val; omega
  rw [he]

/-- The bias row's block is the whole row at every point. -/
theorem bias_block (c : Dev nD) (t : Fin cfg1.N) (y : S1x128.Idx) :
    (iblk1 (F := Ideal) V c 2 t : FVec Ideal S1x128 .f32) y = (V c main_v6 : FVec Ideal S1x128 .f32) y := by
  obtain ⟨-, -, -, -, e4, e5, -⟩ := block_indices t
  unfold iblk1
  show V c main_v6 (((cfg1.win 2).blk t).view.emb y) = V c main_v6 y
  have he : ((cfg1.win 2).blk t).view.emb y = y := by
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  rw [he]

/-! ## What a point writes back, and the whole array -/

/-- Point `t` writes back rows 5000 t … 5000 t + 4999 of the dense part of the arrays the region was entered with. -/
theorem flushed_eq (c : Dev nD) (t : Fin cfg1.N) :
    (dat1 (F := Ideal) V c).flushed 3 t = ((cfg1.win 3).blk t).view.read (Elt Ideal)
      (denseOf (V c main_arg0 : FVec Ideal S100000x128 .f32) (V c main_arg6 : FVec Ideal S128x128 .f32)
        (rowVec (V c main_v6 : FVec Ideal S1x128 .f32))) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := point_lt t
  have hp : p.val < 5000 := p.isLt
  obtain ⟨n, hn⟩ : ∃ n : Fin 100000, n.val = 5000 * t.val + p.val := ⟨⟨5000 * t.val + p.val, by omega⟩, rfl⟩
  obtain ⟨-, -, -, -, -, -, e6, e7⟩ := block_indices t
  have he : ((cfg1.win 3).blk t).view.emb (ix2 p q) = ix2 n q := by
    funext a; apply Fin.ext
    match a with
    | ⟨0, _⟩ => show win1_3.index t (0 : Fin 2) * 5000 + 1 * p.val = n.val; omega
    | ⟨1, _⟩ => show win1_3.index t (1 : Fin 2) * 128 + 1 * q.val = q.val; omega
  show k1_pay1 (F := Ideal) (iblk1 V c 0 t) (iblk1 V c 1 t) (iblk1 V c 2 t) (ix2 p q)
      = denseOf (V c main_arg0 : FVec Ideal S100000x128 .f32) (V c main_arg6 : FVec Ideal S128x128 .f32)
          (rowVec (V c main_v6 : FVec Ideal S1x128 .f32)) (((cfg1.win 3).blk t).view.emb (ix2 p q))
  rw [he, denseOf_apply]
  refine (payload_apply (iblk1 V c 0 t) (iblk1 V c 1 t) (iblk1 V c 2 t) p q).trans ?_
  unfold denseAt
  rw [bias_block V c t (ix2 (0 : Fin 1) q)]
  refine congrArg₂ (· + ·) (Finset.sum_congr rfl fun k _ => ?_) rfl
  rw [nodes_block V c t p k n hn, weight_block V c t (ix2 k q)]

/-- An index of the array is in point `t`'s block iff each coordinate is in the block's range on its axis. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v13).slice (win1_3.rect t)).set ↔ _
  rw [View.set_slice_whole, Rect.mem_set_unit]
  exact Iff.rfl

/-- Node `n` is written back by point `n / 5000`: the 20 blocks of 5000 rows tile the 100000 nodes. -/
theorem cover (i : S100000x128.Idx) :
    ∃ t : Fin cfg1.N, (cfg1.win 3).flush t = true ∧ i ∈ ((cfg1.win 3).blk t).view.set := by
  have h0 : (i 0).val < 100000 := (i 0).isLt
  have h1 : (i 1).val < 128 := (i 1).isLt
  obtain ⟨t, htv⟩ : ∃ t : Fin cfg1.N, t.val = (i 0).val / 5000 :=
    ⟨⟨(i 0).val / 5000, by rw [show cfg1.N = 20 from N_1]; omega⟩, rfl⟩
  obtain ⟨-, -, -, -, -, -, e6, e7⟩ := block_indices t
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The dense array after the region, as one function of the arrays the region was entered with. -/
theorem dense (c : Dev nD) :
    ((dat1 (F := Ideal) V c).arrAt 3 cfg1.N : FVec Ideal S100000x128 .f32)
      = denseOf (V c main_arg0 : FVec Ideal S100000x128 .f32) (V c main_arg6 : FVec Ideal S128x128 .f32)
          (rowVec (V c main_v6 : FVec Ideal S1x128 .f32)) :=
  (dat1 (F := Ideal) V c).arrAt_eq_of_cover 3
    (denseOf (V c main_arg0 : FVec Ideal S100000x128 .f32) (V c main_arg6 : FVec Ideal S128x128 .f32)
      (rowVec (V c main_v6 : FVec Ideal S1x128 .f32)))
    (fun t _ => flushed_eq V c t) cover

end Cert.KernelIdeal.DenseRegion

end
-- ==== Proof.RefStages.lean ====
/-
  The plain program's stages are the specification: its message stage (`val_main_v36`) is `msgOf` of its two
  gathered arrays and the weights, and its dense stage (`val_main_v43`) is `denseOf`.  A host product of a
  [rows,128] array with a [128,128] one is, entry by entry, the sum over the 128 shared features; a slice of the
  gate's weight reads its rows 0 … 127 or 128 … 255; a bias broadcast over the rows reads the bias at the column;
  and 1 / (1 + exp (-x)) with the constant 1.0 is the logistic function.
-/
import proofs.«409943_j27900107555156_3_alg».proof.Proof.Gen.ReferenceIdeal.Read
import proofs.«409943_j27900107555156_3_alg».proof.Proof.Spec
import Idealize.ShloMosaic.Lib.ValueIdx
import Idealize.ShloMosaic.PureOps.Ideal.Laws
import Idealize.ShloMosaic.PureOps.IdealRules

noncomputable section

open Idealize.ShloMosaic Idealize.ShloMosaic.TcCoe Idealize.SL.Sem

namespace Cert.ReferenceIdeal.Stages

open Cert.ReferenceIdeal Cert.ReferenceIdeal.Read Cert.GatedLayer
open scoped BigOperators

/-! ## The index maps of the products, slices and broadcasts, at an index given by its coordinates -/

/-- The left factor of a product over the edges' rows is read at row `e`, feature `k`. -/
theorem lidx_edges (e : Fin 600000) (j k : Fin 128) :
    lidx_main_v19 (ValueIdx.ix2 e j) k = ValueIdx.ix2 e k :=
  funext fun a => Fin.ext (by match a with | ⟨0, _⟩ => rfl | ⟨1, _⟩ => rfl)

/-- The right factor of such a product is read at row `k`, column `j`. -/
theorem ridx_edges (e : Fin 600000) (j k : Fin 128) :
    ridx_main_v19 (ValueIdx.ix2 e j) k = ValueIdx.ix2 k j :=
  funext fun a => Fin.ext (by match a with | ⟨0, _⟩ => rfl | ⟨1, _⟩ => rfl)

/-- The first slice of the gate's weight reads its rows 0 … 127. -/
theorem idx_upper (k j : Fin 128) : idx_main_v18 (ValueIdx.ix2 k j) = ValueIdx.ix2 (upper k) j :=
  funext fun a => Fin.ext (by match a with | ⟨0, _⟩ => rfl | ⟨1, _⟩ => rfl)

/-- The second slice reads its rows 128 … 255. -/
theorem idx_lower (k j : Fin 128) : idx_main_v20 (ValueIdx.ix2 k j) = ValueIdx.ix2 (lower k) j :=
  funext fun a => Fin.ext (by match a with | ⟨0, _⟩ => rfl | ⟨1, _⟩ => rfl)

/-- A bias broadcast over the edges' rows reads the bias at the column. -/
theorem idx_bias_edges (e : Fin 600000) (j : Fin 128) :
    idx_main_v23 (idx_main_v24 (ValueIdx.ix2 e j)) = ValueIdx.ix1 j :=
  funext fun a => Fin.ext (by match a with | ⟨0, _⟩ => rfl)

/-- The same over the nodes' rows. -/
theorem idx_bias_nodes (n : Fin 100000) (j : Fin 128) :
    idx_main_v41 (idx_main_v42 (ValueIdx.ix2 n j)) = ValueIdx.ix1 j :=
  funext fun a => Fin.ext (by match a with | ⟨0, _⟩ => rfl)

/-- The left factor of the product over the nodes' rows is read at row `n`, feature `k`. -/
theorem lidx_nodes (n : Fin 100000) (j k : Fin 128) :
    lidx_main_v40 (ValueIdx.ix2 n j) k = ValueIdx.ix2 n k :=
  funext fun a => Fin.ext (by match a with | ⟨0, _⟩ => rfl | ⟨1, _⟩ => rfl)

/-- Its right factor at row `k`, column `j`. -/
theorem ridx_nodes (n : Fin 100000) (j k : Fin 128) :
    ridx_main_v40 (ValueIdx.ix2 n j) k = ValueIdx.ix2 k j :=
  funext fun a => Fin.ext (by match a with | ⟨0, _⟩ => rfl | ⟨1, _⟩ => rfl)

/-- The printed constant 1.0 is the number one. -/
theorem one_word : Ideal.ofBits .f32 0x3F800000#32 = 1 := IdealRules.sign_bit.ideal_onePat .f32

/-- One over one plus the exponential of the negated argument is the logistic function. -/
theorem logistic_of_parts (x : EReal) :
    Ideal.div (Ideal.ofBits .f32 0x3F800000#32) (Ideal.ofBits .f32 0x3F800000#32 + Ideal.exp (-x)) = Ideal.logistic x := by
  rw [one_word]; rfl

/-- The same two readings for the second product over the edges' rows, -/
theorem lidx_edges21 (e : Fin 600000) (j k : Fin 128) :
    lidx_main_v21 (ValueIdx.ix2 e j) k = ValueIdx.ix2 e k :=
  funext fun a => Fin.ext (by match a with | ⟨0, _⟩ => rfl | ⟨1, _⟩ => rfl)
theorem ridx_edges21 (e : Fin 600000) (j k : Fin 128) :
    ridx_main_v21 (ValueIdx.ix2 e j) k = ValueIdx.ix2 k j :=
  funext fun a => Fin.ext (by match a with | ⟨0, _⟩ => rfl | ⟨1, _⟩ => rfl)

/-- and for the third. -/
theorem lidx_edges32 (e : Fin 600000) (j k : Fin 128) :
    lidx_main_v32 (ValueIdx.ix2 e j) k = ValueIdx.ix2 e k :=
  funext fun a => Fin.ext (by match a with | ⟨0, _⟩ => rfl | ⟨1, _⟩ => rfl)
theorem ridx_edges32 (e : Fin 600000) (j k : Fin 128) :
    ridx_main_v32 (ValueIdx.ix2 e j) k = ValueIdx.ix2 k j :=
  funext fun a => Fin.ext (by match a with | ⟨0, _⟩ => rfl | ⟨1, _⟩ => rfl)

/-- The projection's bias broadcast over the edges' rows reads the bias at the column. -/
theorem idx_bias_edges35 (e : Fin 600000) (j : Fin 128) :
    idx_main_v33 (idx_main_v34 (ValueIdx.ix2 e j)) = ValueIdx.ix1 j :=
  funext fun a => Fin.ext (by match a with | ⟨0, _⟩ => rfl)

/-! ## The three products over the edges' rows and the one over the nodes' rows, summand by summand -/

/-- The receivers' rows against the upper half of the gate's weight. -/
theorem sum_upper (hr : FVec Ideal S600000x128 .f32) (x2 : FVec Ideal S256x128 .f32) (e : Fin 600000) (j : Fin 128) :
    (∑ k : Fin 128, hr (lidx_main_v19 (ValueIdx.ix2 e j) k) * val_main_v18 (F := Ideal) x2 (ridx_main_v19 (ValueIdx.ix2 e j) k))
      = ∑ k : Fin 128, hr (ValueIdx.ix2 e k) * x2 (ValueIdx.ix2 (upper k) j) :=
  Finset.sum_congr rfl fun k _ => by
    rw [val_main_v18_apply, lidx_edges e j k, ridx_edges e j k, idx_upper k j]

/-- The senders' rows against the lower half of the gate's weight. -/
theorem sum_lower (hs : FVec Ideal S600000x128 .f32) (x2 : FVec Ideal S256x128 .f32) (e : Fin 600000) (j : Fin 128) :
    (∑ k : Fin 128, hs (lidx_main_v21 (ValueIdx.ix2 e j) k) * val_main_v20 (F := Ideal) x2 (ridx_main_v21 (ValueIdx.ix2 e j) k))
      = ∑ k : Fin 128, hs (ValueIdx.ix2 e k) * x2 (ValueIdx.ix2 (lower k) j) :=
  Finset.sum_congr rfl fun k _ => by
    rw [val_main_v20_apply, lidx_edges21 e j k, ridx_edges21 e j k, idx_lower k j]

/-- The senders' rows against the projection's weight. -/
theorem sum_proj (hs : FVec Ideal S600000x128 .f32) (x4 : FVec Ideal S128x128 .f32) (e : Fin 600000) (j : Fin 128) :
    (∑ k : Fin 128, hs (lidx_main_v32 (ValueIdx.ix2 e j) k) * x4 (ridx_main_v32 (ValueIdx.ix2 e j) k))
      = ∑ k : Fin 128, hs (ValueIdx.ix2 e k) * x4 (ValueIdx.ix2 k j) :=
  Finset.sum_congr rfl fun k _ => by
    rw [lidx_edges32 e j k, ridx_edges32 e j k]

/-- The nodes' rows against the dense weight. -/
theorem sum_nodes (h : FVec Ideal S100000x128 .f32) (x6 : FVec Ideal S128x128 .f32) (n : Fin 100000) (j : Fin 128) :
    (∑ k : Fin 128, h (lidx_main_v40 (ValueIdx.ix2 n j) k) * x6 (ridx_main_v40 (ValueIdx.ix2 n j) k))
      = ∑ k : Fin 128, h (ValueIdx.ix2 n k) * x6 (ValueIdx.ix2 k j) :=
  Finset.sum_congr rfl fun k _ => by
    rw [lidx_nodes n j k, ridx_nodes n j k]

/-- The message stage is `msgOf` of the gathered senders' rows (`val_main_v17`) and receivers' rows (`val_main_v10`). -/
theorem msg_eq (x0 : FVec Ideal S100000x128 .f32) (x1 : IVec S2x600000 32) (x2 : FVec Ideal S256x128 .f32)
    (x3 : FVec Ideal S128 .f32) (x4 : FVec Ideal S128x128 .f32) (x5 : FVec Ideal S128 .f32) :
    val_main_v36 (F := Ideal) x0 x1 x2 x3 x4 x5
      = msgOf (val_main_v17 (F := Ideal) x0 x1) (val_main_v10 (F := Ideal) x0 x1) x2 x3 x4 x5 := by
  funext i
  obtain ⟨e, j, rfl⟩ : ∃ (e : Fin 600000) (j : Fin 128), i = ValueIdx.ix2 e j := ⟨i 0, i 1, ValueIdx.eq_ix2 i⟩
  rw [msgOf_apply, val_main_v36_apply, val_main_v31_apply, val_main_v30_apply, val_main_cst_3_apply,
    val_main_v29_apply, val_main_v28_apply, val_main_cst_apply, val_main_v27_apply, val_main_v26_apply,
    val_main_v25_apply, val_main_v22_apply, val_main_v19_apply, val_main_v21_apply, val_main_v24_apply,
    val_main_v23_apply, val_main_v35_apply, val_main_v32_apply, val_main_v34_apply, val_main_v33_apply,
    sum_upper, sum_lower, sum_proj, idx_bias_edges, idx_bias_edges35]
  simp only [Ideal.mulf_def, Ideal.addf_def, Ideal.hostDivf_def, Ideal.hostUnary_exp_def, Ideal.hostNegf_def,
    Ideal.negf_def, Ideal.ofBits_def]
  rw [logistic_of_parts]
  rfl

/-- The dense stage is `denseOf`. -/
theorem dense_eq (x0 : FVec Ideal S100000x128 .f32) (x6 : FVec Ideal S128x128 .f32) (x7 : FVec Ideal S128 .f32) :
    val_main_v43 (F := Ideal) x0 x6 x7 = denseOf x0 x6 x7 := by
  funext i
  obtain ⟨n, j, rfl⟩ : ∃ (n : Fin 100000) (j : Fin 128), i = ValueIdx.ix2 n j := ⟨i 0, i 1, ValueIdx.eq_ix2 i⟩
  rw [denseOf_apply, val_main_v43_apply, val_main_v40_apply, val_main_v42_apply, val_main_v41_apply,
    sum_nodes, idx_bias_nodes, Ideal.addf_def]
  rfl

end Cert.ReferenceIdeal.Stages

end
-- ==== Proof.KernelValue.lean ====
/-
  The tiled program's result is the plain program's result stage, under the precondition.

  The result buffer holds the dense region's array plus the messages added into their receivers' rows.  The dense
  region's array is `denseOf` of the node features, the weight and the bias (the bias reaches the region as a [1,128]
  row, which read back as a vector is the bias itself), and that is the plain program's dense stage.  The message
  array is `msgOf` of the two gathered arrays, the weights and the biases; with every id in range the gathered arrays
  are the plain program's, so the message array is its message stage.  The scatter-add and the final sum are the same
  operations on both sides, applied to equal arrays.
-/
import proofs.«409943_j27900107555156_3_alg».proof.Proof.HostSide
import proofs.«409943_j27900107555156_3_alg».proof.Proof.IndexRange
import proofs.«409943_j27900107555156_3_alg».proof.Proof.EdgeRegion
import proofs.«409943_j27900107555156_3_alg».proof.Proof.DenseRegion
import proofs.«409943_j27900107555156_3_alg».proof.Proof.RefStages
import Idealize.ShloMosaic.Lib.ValueLayout

noncomputable section

open Idealize.ShloMosaic Idealize.ShloMosaic.TcCoe Idealize.SL.Sem

namespace Cert.KernelIdeal.Whole

open Cert.KernelIdeal Cert.KernelIdeal.Gen Cert.GatedLayer

variable (m : (ℓ : Loc nD τ sig) → Buf (Elt Ideal) ℓ) (ρ : Dev nD → PrngReg)

/-- A vector of 128 laid out as a [1,128] row and read back as a vector is itself. -/
theorem rowVec_shapeCast (b : FVec Ideal S128 .f32) (h : S128.ShapeCasts S1x128) :
    rowVec (shapeCast S1x128 b h) = b := by
  funext j
  exact (ValueIdx.shapeCast_a_1a_apply (a := 128) b h (0 : Fin 1) (j 0)).trans (congrArg b (ValueIdx.eq_ix1 j).symm)

/-- The two programs index their scatter-add alike. -/
theorem scatterDims_eq :
    Cert.KernelIdeal.scatter_S100000x128_S600000x1_S600000x128_1_0_0_1
      = Cert.ReferenceIdeal.scatter_S100000x128_S600000x1_S600000x128_1_0_0_1 := rfl

/-- Under the precondition the result buffer ends at the plain program's result stage of the launch arrays. -/
theorem value (hpre : Cert.Pre_KernelIdeal m) (c : Dev nD) :
    (W7 m ρ c (Proc.devRef .tc main_v14) : FVec Ideal S100000x128 .f32)
      = Cert.ReferenceIdeal.Read.val_main_v44 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [HostSide.result m ρ c, DenseRegion.dense (V5 m ρ) c, EdgeRegion.messages (V3 m ρ) c,
    HostSide.entry_h m ρ c, HostSide.entry_Wr m ρ c, HostSide.entry_br m ρ c,
    IndexRange.send_rows m ρ hpre c, IndexRange.rec_rows m ρ hpre c,
    HostSide.entry_Wg m ρ c, HostSide.entry_Ws m ρ c, HostSide.entry_bg m ρ c, HostSide.entry_bs m ρ c,
    rowVec_shapeCast, rowVec_shapeCast, rowVec_shapeCast,
    ← Cert.ReferenceIdeal.Stages.dense_eq, ← Cert.ReferenceIdeal.Stages.msg_eq, scatterDims_eq]
  rfl

end Cert.KernelIdeal.Whole

end
-- ==== Proof.lean ====
/-
  One gated message-passing layer: a tiled program against the plain one, on the extended reals.

  Both programs compute, for every node n and feature j,
      sum_k h(n,k) Wr(k,j) + br(j)   +   sum over the edges e received by n of  msg(e,j),
  where msg(e,j) = logistic( sum_k h(rec e,k) Wg(k,j) + sum_k h(send e,k) Wg(128+k,j) + bg(j) )
                     * ( sum_k h(send e,k) Ws(k,j) + bs(j) ).
  The tiled program gathers the senders' and receivers' rows on the host, computes the messages in a region of 200
  grid points of 3000 edges each, adds them into their receivers' rows on the host, computes the dense part in a
  region of 20 grid points of 5000 nodes each, and adds the two.  The plain program does the same with whole-array
  host operations.  On the extended reals a change of float format is the identity, a product into a zero accumulator
  is the plain sum over the shared features, and tiling the rows changes nothing, so the two message arrays and the
  two dense arrays are the same functions of the arguments; the scatter-add and the last sum are literally the same
  operations.

  The one place the programs differ is an id outside the node range: the tiled program's gather replaces such a row
  by a filler, the plain program's gather clamps the id.  The precondition therefore asks, beside finite float
  inputs, that every id of the edge list lies in -100000 … 99999, the range in which indexing a 100000-row array is
  defined (negative ids count from the end, and both programs wrap them round alike).  The finiteness of the float
  inputs is never used: no law applied here needs it.

  The three frames: the two tiled programs' frames are the generated ones; the plain program's frame is its
  generated run with the result dropped.  The idealization rewrote nothing, so `preserves` is trivial.
-/
import proofs.«409943_j27900107555156_3_alg».proof.Defs
import proofs.«409943_j27900107555156_3_alg».proof.Proof.Gen.Kernel
import proofs.«409943_j27900107555156_3_alg».proof.Proof.Gen.Kernel.Frame
import proofs.«409943_j27900107555156_3_alg».proof.Proof.Gen.KernelIdeal
import proofs.«409943_j27900107555156_3_alg».proof.Proof.Gen.KernelIdeal.Frame
import proofs.«409943_j27900107555156_3_alg».proof.Proof.Gen.ReferenceIdeal
import proofs.«409943_j27900107555156_3_alg».proof.Proof.Gen.ReferenceIdeal.Run
import proofs.«409943_j27900107555156_3_alg».proof.Proof.Gen.ReferenceIdeal.Read
import proofs.«409943_j27900107555156_3_alg».proof.Proof.Gen.Pre_finite_inputs
import proofs.«409943_j27900107555156_3_alg».proof.Proof.LaunchNamed
import proofs.«409943_j27900107555156_3_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result at the plain program's result stage
    of the tiled program's launch arrays: the tiled program by its run and `Whole.value`, the plain one by its
    generated run with the agreeing arguments rewritten. -/
theorem algebraic : Cert.algebraic_KernelIdeal_ReferenceIdeal := by
  intro m ρ m' ρ' hpre hagree
  refine ⟨fun c => Cert.KernelIdeal.Gen.W7 m ρ c (Proc.devRef .tc Cert.KernelIdeal.main_v14),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq m' c, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Whole.value m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
